-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S4096 : Shape := ⟨1, ![4096]⟩
abbrev S16777216 : Shape := ⟨1, ![16777216]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S4096 : S_.BroadcastsInDim S4096 (![] : Fin 0 → Fin S4096.rank)
  reducesTo_S4096_S_d0 : S4096.ReducesTo [0] S_
  bcast_S_S16777216 : S_.BroadcastsInDim S16777216 (![] : Fin 0 → Fin S16777216.rank)
  reducesTo_S16777216_S_d0 : S16777216.ReducesTo [0] S_

variable [Facts]

def fn_part2 {F : FTy → Type} [FloatOps F] (main_arg7 : FVec F S16777216 .f32) (main_v33 : IVec S_ 1) : IVec S_ 1 :=
  let main_v34 : FVec F S16777216 .f32 := Host.absf main_arg7
  let main_cst_12 : FVec F S_ .f32 := constant S_ .f32 0x7F800000#32
  let main_v35 : FVec F S16777216 .f32 := broadcastInDim S16777216 ![] bcast_S_S16777216 main_cst_12
  let main_v36 : IVec S16777216 1 := cmpf .olt main_v34 main_v35
  let main_c_13 : IVec S_ 1 := constantI S_ 1 1#1
  let main_v37 : IVec S_ 1 := (fun x v => Host.reduce IntOp.andi x v reducesTo_S16777216_S_d0 h_S_) main_v36 main_c_13
  let main_v38 : IVec S_ 1 := andi main_v33 main_v37
  main_v38

def fn_part1 {F : FTy → Type} [FloatOps F] (main_arg4 : FVec F S16777216 .f32) (main_arg5 : FVec F S4096 .f32) (main_arg6 : FVec F S1 .f32) (main_arg7 : FVec F S16777216 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S16777216 .f32 := Host.absf main_arg4
  let main_cst_6 : FVec F S_ .f32 := constant S_ .f32 0x7F800000#32
  let main_v20 : FVec F S16777216 .f32 := broadcastInDim S16777216 ![] bcast_S_S16777216 main_cst_6
  let main_v21 : IVec S16777216 1 := cmpf .olt main_v19 main_v20
  let main_c_7 : IVec S_ 1 := constantI S_ 1 1#1
  let main_v22 : IVec S_ 1 := (fun x v => Host.reduce IntOp.andi x v reducesTo_S16777216_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_v33

def fn {F : FTy → Type} [FloatOps F] (main_arg0 : FVec F S1 .f32) (main_arg1 : FVec F S4096 .f32) (main_arg2 : FVec F S4096 .f32) (main_arg3 : FVec F S4096 .f32) (main_arg4 : FVec F S16777216 .f32) (main_arg5 : FVec F S4096 .f32) (main_arg6 : FVec F S1 .f32) (main_arg7 : FVec F S16777216 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S1 : Shape := ⟨1, ![1]⟩
abbrev S4096 : Shape := ⟨1, ![4096]⟩
abbrev S16777216 : Shape := ⟨1, ![16777216]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S1, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S16777216, .f32⟩
  | .hbm, ⟨5, _⟩ => ⟨S4096, .f32⟩
  | .hbm, ⟨6, _⟩ => ⟨S1, .f32⟩
  | .hbm, ⟨7, _⟩ => ⟨S16777216, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S16777216, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S16777216_S4096x4096 : S16777216.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S4096x4096_S16777216 : S4096x4096.ShapeCasts S16777216
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1 : Shape := ⟨1, ![1]⟩
abbrev S4096 : Shape := ⟨1, ![4096]⟩
abbrev S16777216 : Shape := ⟨1, ![16777216]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S1, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S16777216, .f32⟩
  | .hbm, ⟨5, _⟩ => ⟨S4096, .f32⟩
  | .hbm, ⟨6, _⟩ => ⟨S1, .f32⟩
  | .hbm, ⟨7, _⟩ => ⟨S16777216, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S16777216, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩

abbrev nD : Nat := 1
abbrev τ : Topo := Topo.v7x

variable {F : FTy → Type} [FloatOps F]

class Facts₀ : Prop where
  shapeCasts_S16777216_S4096x4096 : S16777216.ShapeCasts S4096x4096
  shapeCasts_S4096x4096_S16777216 : S4096x4096.ShapeCasts S16777216
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid point leaves behind, case by case.

  A grid point (i, j, k) works on the tile (i, j) of the result and on the k-th slab of the contracted axis. The
  kernel keeps a 1024 × 1024 accumulator between the points of one tile. At k = 0 it first clears the accumulator;
  at every k it replaces the accumulator by "accumulator + (block of the left array) · (block of the right array)";
  at k = 7 it then copies the accumulator into the tile of the result.

  The lemmas below say exactly that, for any float instance: whatever the accumulator held before, after the point
  it holds the update term `k0_pay2` of the two input blocks and of the previous accumulator (the cleared one,
  `k0_pay1`, at k = 0), and at k = 7 the output block holds the same term.
-/
import proofs.«128354_j16303695855981_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin : (![0, 0] : Fin 2 → Nat) = fun _ => 0 := funext fun a => by fin_cases a <;> rfl

/-- First slab (k = 0): the accumulator is cleared, then updated; it ends at the update of the cleared block. -/
theorem scratch_first (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, harg6.read_unread, View.ld_unit_zero (S := S1024x512) origin, View.ld_unit_zero (S := S512x1024) origin, View.ld_unit_zero (S := S1024x1024) origin]

/-- A middle slab (0 < k < 7): the accumulator ends at the update of what the point before left in it. -/
theorem scratch_middle (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero origin]
  simp only [View.readAt_eq_ld, harg3.read_unread, harg4.read_unread, harg6.read_unread, View.ld_unit_zero (S := S1024x512) origin, View.ld_unit_zero (S := S512x1024) origin, View.ld_unit_zero (S := S1024x1024) origin]

/-- The last slab (k = 7): the accumulator is updated in the same way, -/
theorem scratch_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero origin]
  simp only [View.readAt_eq_ld, harg3.read_unread, harg4.read_unread, harg6.read_unread, View.ld_unit_zero (S := S1024x512) origin, View.ld_unit_zero (S := S512x1024) origin, View.ld_unit_zero (S := S1024x1024) origin]

/-- and the output block receives the updated accumulator, read back after the update. -/
theorem out_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero origin]
  simp only [View.readAt_eq_ld, harg3.read_unread, harg4.read_unread, harg6.read_unread, View.readCov_unit_zero (S := S1024x1024) _ origin, View.ld_unit_zero (S := S1024x512) origin, View.ld_unit_zero (S := S512x1024) origin, View.ld_unit_zero (S := S1024x1024) origin]

end Cert.KernelIdeal.Pieces

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Payload.lean ====
/-
  The accumulator's update, read at one entry of the tile, at the ideal values.

  At the ideal values a change of float format is the identity and the matrix unit's product into a zero accumulator
  is the plain sum of products. So the update "accumulator + (left block) · (right block)" holds, at entry (p, q) of
  the 1024 × 1024 tile, the old entry plus the sum over the 512 positions of the slab of left (p, k) · right (k, q);
  and the cleared accumulator holds 0 everywhere.
-/
import proofs.«128354_j16303695855981_1_alg».proof.Proof.Gen.KernelIdeal.Skeleton
import proofs.«128354_j16303695855981_1_alg».proof.Proof.LibDot
import Idealize.ShloMosaic.Lib.Pipeline.Value

noncomputable section

open Idealize.ShloMosaic Idealize.ShloMosaic.ValueIdx

namespace Cert.KernelIdeal.Payload

open Cert.KernelIdeal Cert.KernelIdeal.Gen

/-- The cleared accumulator is 0 at every entry. -/
theorem cleared_apply (j : S1024x1024.Idx) : k0_pay1 (F := Ideal) j = 0 := by
  unfold k0_pay1
  simp only [shapeCast_self]
  exact Ideal.ofBits_zero_f32

/-- The printed dimension record is the plain rows-by-columns one. -/
theorem dims_plain : dot_S1024x512_S512x1024_S1024x1024_1_0_0_1_n_n = DotDims.plain 1024 512 1024 := rfl

/-- The update at entry (p, q): the old entry plus the slab's 512 products. -/
theorem update_apply (x0 : Vec Ideal S1024x512 .f32) (x1 : Vec Ideal S512x1024 .f32) (xs : Vec Ideal S1024x1024 .f32)
    (p q : Fin 1024) :
    k0_pay2 (F := Ideal) x0 x1 xs (ix2 p q) = xs (ix2 p q) + ∑ k : Fin 512, x0 (ix2 p k) * x1 (ix2 k q) := by
  unfold k0_pay2
  simp only [shapeCast_self]
  show xs (ix2 p q)
      + FloatOps.matmul (F := Ideal) (DotDims.plain 1024 512 1024) none
          (x0 : FVec Ideal ⟨2, ![1024, 512]⟩ .bf16) (x1 : FVec Ideal ⟨2, ![512, 1024]⟩ .bf16)
          (constant (F := Ideal) ⟨2, ![1024, 1024]⟩ .f32 0x00000000#32) (ix2 p q) = _
  rw [Cert.GNN.matmul_plain_zero_apply]

end Cert.KernelIdeal.Payload

end
-- ==== Proof.Spec.lean ====
/-
  The product of two 4096 × 4096 arrays, entry by entry, and the same entry reached in eight steps.

  Entry (r, c) of the product is the sum over k < 4096 of A (r, k) · B (k, c). Cut the range of k into eight slabs of
  512: slab kb holds k = 512 · kb + kk for kk < 512, and its share of the entry is the sum of the 512 terms of the slab.
  The running sum after slab n adds the shares of the slabs 0, …, n; after slab 7 it is the whole entry. Nothing but
  the commutative-monoid laws of + on the extended reals is used, so infinite values need no care here.
-/
import Idealize.ShloMosaic.PureOps.Ideal.Laws
import Idealize.ShloMosaic.Lib.ValueIdx
import Mathlib.Algebra.BigOperators.Fin

noncomputable section

namespace Cert.TiledProduct

open Idealize.ShloMosaic Idealize.ShloMosaic.ValueIdx

/-- A 4096 × 4096 array of extended reals. -/
abbrev Mat : Type := FVec Ideal ⟨2, ![4096, 4096]⟩ .f32

/-- Entry (r, c) of an array, for natural numbers r and c; outside the array the value 0, which no statement reads. -/
def entry (X : Mat) (r c : ℕ) : EReal := if h : r < 4096 ∧ c < 4096 then X (ix2 ⟨r, h.1⟩ ⟨c, h.2⟩) else 0

theorem entry_of_lt (X : Mat) {r c : ℕ} (hr : r < 4096) (hc : c < 4096) : entry X r c = X (ix2 ⟨r, hr⟩ ⟨c, hc⟩) :=
  dif_pos ⟨hr, hc⟩

/-- The product, entry by entry. -/
def prod (A B : Mat) : Mat := fun i => ∑ k : Fin 4096, A (ix2 (i 0) k) * B (ix2 k (i 1))

/-- Slab kb's share of entry (r, c): the 512 terms with k = 512 · kb + kk. -/
def share (A B : Mat) (r c kb : ℕ) : EReal :=
  ∑ kk : Fin 512, entry A r (kb * 512 + kk.val) * entry B (kb * 512 + kk.val) c

/-- The running sum of entry (r, c) after slab n. -/
def running (A B : Mat) (r c n : ℕ) : EReal := ∑ kb ∈ Finset.range (n + 1), share A B r c kb

theorem running_zero (A B : Mat) (r c : ℕ) : running A B r c 0 = share A B r c 0 := Finset.sum_range_one _

theorem running_succ (A B : Mat) (r c n : ℕ) : running A B r c (n + 1) = running A B r c n + share A B r c (n + 1) :=
  Finset.sum_range_succ _ _

/-- n slabs of 512 consecutive terms are the first 512 · n terms. -/
theorem slabs_eq_range (g : ℕ → EReal) : ∀ n : ℕ,
    ∑ kb ∈ Finset.range n, ∑ kk ∈ Finset.range 512, g (kb * 512 + kk) = ∑ k ∈ Finset.range (n * 512), g k
  | 0 => by simp
  | n + 1 => by
    rw [Finset.sum_range_succ, slabs_eq_range g n, Nat.succ_mul, Finset.sum_range_add]

/-- After the eighth slab the running sum is the product's entry. -/
theorem running_seven (A B : Mat) (r c : Fin 4096) : running A B r.val c.val 7 = prod A B (ix2 r c) := by
  unfold running share prod
  have hterm : ∀ k : Fin 4096, A (ix2 r k) * B (ix2 k c) = (fun k : ℕ => entry A r.val k * entry B k c.val) k.val :=
    fun k => by
      show _ = entry A r.val k.val * entry B k.val c.val
      rw [entry_of_lt A r.isLt k.isLt, entry_of_lt B k.isLt c.isLt]
  show _ = ∑ k : Fin 4096, A (ix2 r k) * B (ix2 k c)
  rw [Finset.sum_congr rfl fun k _ => hterm k, Fin.sum_univ_eq_sum_range (fun k : ℕ => entry A r.val k * entry B k c.val) 4096]
  have hslab : ∀ kb ∈ Finset.range (7 + 1),
      (∑ kk : Fin 512, entry A r.val (kb * 512 + kk.val) * entry B (kb * 512 + kk.val) c.val)
        = ∑ kk ∈ Finset.range 512, (fun k : ℕ => entry A r.val k * entry B k c.val) (kb * 512 + kk) :=
    fun kb _ => Fin.sum_univ_eq_sum_range (fun kk : ℕ => entry A r.val (kb * 512 + kk) * entry B (kb * 512 + kk) c.val) 512
  rw [Finset.sum_congr rfl hslab]
  exact slabs_eq_range (fun k : ℕ => entry A r.val k * entry B k c.val) 8

end Cert.TiledProduct

end
-- ==== Proof.Blocks.lean ====
/-
  Which entries of the two arrays a grid point reads.

  The 128 grid points are numbered row-major over (i, j, k) with 4 × 4 × 8 values, so point t has i = t / 32,
  j = (t / 8) mod 4 and k = t mod 8. At point t the left window holds rows 1024 · i … of the left array and columns
  512 · k …, the right window rows 512 · k … and columns 1024 · j …, and the output window is the tile (i, j). Both
  arrays are the flat arguments re-laid as 4096 × 4096 by the two reshapes that precede the kernel.
-/
import proofs.«128354_j16303695855981_1_alg».proof.Proof.Gen.KernelIdeal.Frame
import proofs.«128354_j16303695855981_1_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.TiledProduct

variable (m : (ℓ : Loc nD τ sig) → Buf (Elt Ideal) ℓ)

/-- The left and the right array as the kernel finds them, -/
abbrev left (c : Dev nD) : Mat := V m c main_v0
abbrev right (c : Dev nD) : Mat := V m c main_v1
/-- and the blocks of them that point t is handed. -/
abbrev leftBlk (c : Dev nD) (t : Fin cfg0.N) : Vec Ideal S1024x512 .f32 := iblk m c 0 t
abbrev rightBlk (c : Dev nD) (t : Fin cfg0.N) : Vec Ideal S512x1024 .f32 := iblk m c 1 t

/-- The block indices of the three windows at point t, decided over the grid. -/
theorem index_left : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem index_right : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)
theorem index_out : ∀ t : Fin cfg0.N, win0_2.index t 0 = t.val / 32 ∧ win0_2.index t 1 = t.val / 8 % 4 :=
  (by decide +kernel : ∀ t : Fin grid0.N, win0_2.index t 0 = t.val / 32 ∧ win0_2.index t 1 = t.val / 8 % 4)

theorem point_lt (t : Fin cfg0.N) : t.val < 128 := lt_of_lt_of_eq t.isLt (show cfg0.N = 128 from N_0)

/-- Entry (p, k) of the left block at point t is entry (1024 · i + p, 512 · k' + k) of the left array (k' the slab). -/
theorem leftBlk_apply (c : Dev nD) (t : Fin cfg0.N) (p : Fin 1024) (k : Fin 512) :
    leftBlk m c t (ix2 p k) = entry (left m c) (t.val / 32 * 1024 + p.val) (t.val % 8 * 512 + k.val) := by
  have hN := point_lt t
  rw [entry_of_lt _ (by omega) (by omega)]
  show ((cfg0.win 0).blk t).view.read (Elt Ideal) (V m c (Pipeline.arrRef spec0 0)) (ix2 p k) = _
  rw [View.read_apply]
  show V m c main_v0 _ = V m c main_v0 _
  congr 1
  funext a
  apply Fin.ext
  match a with
  | ⟨0, _⟩ => show win0_0.index t 0 * 1024 + 1 * p.val = t.val / 32 * 1024 + p.val; rw [(index_left t).1]; omega
  | ⟨1, _⟩ => show win0_0.index t 1 * 512 + 1 * k.val = t.val % 8 * 512 + k.val; rw [(index_left t).2]; omega

/-- Entry (k, q) of the right block at point t is entry (512 · k' + k, 1024 · j + q) of the right array. -/
theorem rightBlk_apply (c : Dev nD) (t : Fin cfg0.N) (k : Fin 512) (q : Fin 1024) :
    rightBlk m c t (ix2 k q) = entry (right m c) (t.val % 8 * 512 + k.val) (t.val / 8 % 4 * 1024 + q.val) := by
  have hN := point_lt t
  rw [entry_of_lt _ (by omega) (by omega)]
  show ((cfg0.win 1).blk t).view.read (Elt Ideal) (V m c (Pipeline.arrRef spec0 1)) (ix2 k q) = _
  rw [View.read_apply]
  show V m c main_v1 _ = V m c main_v1 _
  congr 1
  funext a
  apply Fin.ext
  match a with
  | ⟨0, _⟩ => show win0_1.index t 0 * 512 + 1 * k.val = t.val % 8 * 512 + k.val; rw [(index_right t).1]; omega
  | ⟨1, _⟩ => show win0_1.index t 1 * 1024 + 1 * q.val = t.val / 8 % 4 * 1024 + q.val; rw [(index_right t).2]; omega

/-- The reshapes before the kernel: the left array is the last argument re-laid, the right one the fifth. -/
theorem left_eq (c : Dev nD) :
    left m c = shapeCast S4096x4096 (m ((c : Thread nD τ).loc main_arg7)) shapeCasts_S16777216_S4096x4096 := by
  show StableHlo.after hostOps0 (fun b => m (c, b)) (Proc.devRef .tc main_v0) = _
  after_results
  rfl

theorem right_eq (c : Dev nD) :
    right m c = shapeCast S4096x4096 (m ((c : Thread nD τ).loc main_arg4)) shapeCasts_S16777216_S4096x4096 := by
  show StableHlo.after hostOps0 (fun b => m (c, b)) (Proc.devRef .tc main_v1) = _
  after_results
  rfl

end Cert.KernelIdeal.Blocks

end
-- ==== Proof.Accum.lean ====
/-
  The accumulator, point by point.

  Write a grid point as t = 32 · i + 8 · j + k. Over the eight points of one tile (i, j) the accumulator is cleared at
  k = 0 and then gathers one slab's share at every k; so after point t its entry (p, q) is the running sum, after slab k,
  of entry (1024 · i + p, 1024 · j + q) of the product. This is proved by induction on t: at k = 0 the update starts from
  the cleared block, and at k > 0 it starts from what the point before left, which belongs to the same tile. At k = 7
  the output block receives the same values.
-/
import proofs.«128354_j16303695855981_1_alg».proof.Proof.Pieces
import proofs.«128354_j16303695855981_1_alg».proof.Proof.Payload
import proofs.«128354_j16303695855981_1_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.TiledProduct Cert.KernelIdeal.Blocks

variable (m : (ℓ : Loc nD τ sig) → Buf (Elt Ideal) ℓ)

/-- The update at point t, at entry (p, q): the old entry plus slab (t mod 8)'s share of the product's entry. -/
theorem update_at (c : Dev nD) (t : Fin cfg0.N) (xs : Vec Ideal S1024x1024 .f32) (p q : Fin 1024) :
    k0_pay2 (F := Ideal) (leftBlk m c t) (rightBlk m c t) xs (ix2 p q)
      = xs (ix2 p q) + share (left m c) (right m c) (t.val / 32 * 1024 + p.val) (t.val / 8 % 4 * 1024 + q.val) (t.val % 8) := by
  rw [Payload.update_apply]
  unfold share
  refine congrArg (fun z : EReal => xs (ix2 p q) + z) (Finset.sum_congr rfl fun k _ => ?_)
  rw [leftBlk_apply, rightBlk_apply]

/-- First slab of a tile: the accumulator holds the slab's share alone. -/
theorem first_slab (c : Dev nD) (t : Fin cfg0.N) (h0 : t.val % 8 = 0) (h1 : ¬t.val % 8 = 7) (p q : Fin 1024) :
    (outsAt0 m c t.val t.isLt).2 (ix2 p q)
      = share (left m c) (right m c) (t.val / 32 * 1024 + p.val) (t.val / 8 % 4 * 1024 + q.val) (t.val % 8) := by
  rw [outsAt0_A m c t h0 h1]
  dsimp only
  refine (congrFun (Pieces.scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (leftBlk m c t) (rightBlk m c t)) (ix2 p q)).trans ?_
  rw [update_at, Payload.cleared_apply, zero_add]

/-- A later slab: the accumulator holds what the point before left, plus the slab's share. -/
theorem later_slab (c : Dev nD) (t : Fin cfg0.N) (h0 : ¬t.val % 8 = 0) (p q : Fin 1024) :
    (outsAt0 m c t.val t.isLt).2 (ix2 p q)
      = (outsAt0 m c (t.val - 1) (Nat.lt_of_le_of_lt (Nat.sub_le _ _) t.isLt)).2 (ix2 p q)
        + share (left m c) (right m c) (t.val / 32 * 1024 + p.val) (t.val / 8 % 4 * 1024 + q.val) (t.val % 8) := by
  by_cases h1 : t.val % 8 = 7
  · rw [outsAt0_C m c t h0 h1]
    dsimp only
    refine (congrFun (Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (leftBlk m c t) (rightBlk m c t) (outsAt0 m c (t.val - 1) (Nat.lt_of_le_of_lt (Nat.sub_le _ _) t.isLt)).2) (ix2 p q)).trans ?_
    rw [update_at]
  · rw [outsAt0_B m c t h0 h1]
    dsimp only
    refine (congrFun (Pieces.scratch_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (leftBlk m c t) (rightBlk m c t) (outsAt0 m c (t.val - 1) (Nat.lt_of_le_of_lt (Nat.sub_le _ _) t.isLt)).2) (ix2 p q)).trans ?_
    rw [update_at]

/-- At the last slab the output block is the accumulator. -/
theorem out_eq_scratch (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  refine (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (leftBlk m c t) (rightBlk m c t) (outsAt0 m c (t.val - 1) (Nat.lt_of_le_of_lt (Nat.sub_le _ _) t.isLt)).2).trans ?_
  exact (Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (leftBlk m c t) (rightBlk m c t) (outsAt0 m c (t.val - 1) (Nat.lt_of_le_of_lt (Nat.sub_le _ _) t.isLt)).2).symm

/-- THE INVARIANT: after point n the accumulator's entry (p, q) is the running sum after slab n mod 8. -/
theorem scratch_apply (c : Dev nD) : ∀ (n : ℕ) (hn : n < cfg0.N) (p q : Fin 1024),
    (outsAt0 m c n hn).2 (ix2 p q)
      = running (left m c) (right m c) (n / 32 * 1024 + p.val) (n / 8 % 4 * 1024 + q.val) (n % 8)
  | 0, hn, p, q => by
    have h := first_slab m c ⟨0, hn⟩ rfl (by show ¬(0 % 8 = 7); decide) p q
    show _ = running _ _ _ _ 0
    rw [running_zero]
    exact h
  | n + 1, hn, p, q => by
    have hN : n + 1 < 128 := lt_of_lt_of_eq hn (show cfg0.N = 128 from N_0)
    by_cases h0 : (n + 1) % 8 = 0
    · refine (first_slab m c ⟨n + 1, hn⟩ h0 (by dsimp only; omega) p q).trans ?_
      show share _ _ _ _ ((n + 1) % 8) = running _ _ _ _ ((n + 1) % 8)
      rw [h0, running_zero]
    · refine (later_slab m c ⟨n + 1, hn⟩ h0 p q).trans ?_
      show (outsAt0 m c n _).2 (ix2 p q)
          + share (left m c) (right m c) ((n + 1) / 32 * 1024 + p.val) ((n + 1) / 8 % 4 * 1024 + q.val) ((n + 1) % 8) = _
      have e1 : (n + 1) % 8 = n % 8 + 1 := by omega
      have e2 : (n + 1) / 32 = n / 32 := by omega
      have e3 : (n + 1) / 8 % 4 = n / 8 % 4 := by omega
      rw [scratch_apply c n (Nat.lt_of_succ_lt hn) p q, e1, e2, e3, running_succ]

/-- At a point with k = 7 the output block holds the product's entries of its tile. -/
theorem out_apply (c : Dev nD) (t : Fin cfg0.N) (h7 : t.val % 8 = 7) (p q : Fin 1024) :
    (outsAt0 m c t.val t.isLt).1 (ix2 p q)
      = prod (left m c) (right m c) (ix2 ⟨t.val / 32 * 1024 + p.val, by have := point_lt t; omega⟩
          ⟨t.val / 8 % 4 * 1024 + q.val, by have := point_lt t; omega⟩) := by
  rw [out_eq_scratch m c t (by omega) h7, scratch_apply m c t.val t.isLt p q, h7]
  exact running_seven (left m c) (right m c) ⟨t.val / 32 * 1024 + p.val, by have := point_lt t; omega⟩
    ⟨t.val / 8 % 4 * 1024 + q.val, by have := point_lt t; omega⟩

end Cert.KernelIdeal.Accum

end
-- ==== Proof.Result.lean ====
/-
  The whole result of the kernel's program.

  The output window is written back only at the points with k = 7, and there the output block holds the product's
  entries of the tile (i, j). The sixteen tiles fill the 4096 × 4096 output array, each index lying in the tile of the
  point 32 · (row / 1024) + 8 · (column / 1024) + 7; so after the run the output array is the product of the two arrays
  the kernel found, which are the two flat arguments re-laid. The one operation after the kernel lays the output flat
  again, and no argument is written.
-/
import proofs.«128354_j16303695855981_1_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.TiledProduct Cert.KernelIdeal.Blocks

variable (m : (ℓ : Loc nD τ sig) → Buf (Elt Ideal) ℓ) (ρ : Dev nD → PrngReg)

/-- The product of the two arrays the kernel found, as contents of the output array. -/
abbrev product (c : Dev nD) : Buf (Elt Ideal) ((c : Thread nD τ).loc main_v2) := prod (left m c) (right m c)

/-- What a point with k = 7 writes back is its tile of the product. -/
theorem flushed_eq (c : Dev nD) (t : Fin cfg0.N) (hf : (cfg0.win 2).flush t = true) :
    (dats m 0 c).flushed 2 t = ((cfg0.win 2).blk t).view.read (Elt Ideal) (product m c) := by
  have h7 : t.val % 8 = 7 := (flush0_2 t).mp hf
  show (cfg0.win 2).cut (grid0.coords t) ((dats m 0 c).after 2 t) = _
  rw [after0_2]
  funext y
  obtain ⟨p, q, rfl⟩ : ∃ (p : Fin 1024) (q : Fin 1024), y = ix2 p q := ⟨y 0, y 1, eq_ix2 y⟩
  show (outsAt0 m c t.val t.isLt).1 (ix2 p q) = product m c (((cfg0.win 2).blk t).view.emb (ix2 p q))
  rw [Accum.out_apply m c t h7 p q]
  show prod (left m c) (right m c) _ = prod (left m c) (right m c) _
  congr 1
  funext a
  apply Fin.ext
  match a with
  | ⟨0, _⟩ => show t.val / 32 * 1024 + p.val = win0_2.index t 0 * 1024 + 1 * p.val; rw [(index_out t).1]; omega
  | ⟨1, _⟩ => show t.val / 8 % 4 * 1024 + q.val = win0_2.index t 1 * 1024 + 1 * q.val; rw [(index_out t).2]; omega

/-- An index of the output array lies in point t's tile iff each coordinate lies in the tile's range. -/
theorem mem_tile (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the output array lies in the tile some point with k = 7 writes back. -/
theorem covered (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  obtain ⟨n, hn⟩ : ∃ n, n = (i 0).val / 1024 * 32 + (i 1).val / 1024 * 8 + 7 := ⟨_, rfl⟩
  have hlt : n < cfg0.N := by rw [show cfg0.N = 128 from N_0]; omega
  obtain ⟨e0, e1⟩ := index_out ⟨n, hlt⟩
  refine ⟨⟨n, hlt⟩, (flush0_2 _).mpr (by show n % 8 = 7; omega), ?_⟩
  rw [mem_tile]
  intro a
  match a with
  | ⟨0, _⟩ => show win0_2.index ⟨n, hlt⟩ 0 * 1024 ≤ (i 0).val ∧ (i 0).val < win0_2.index ⟨n, hlt⟩ 0 * 1024 + 1024
              rw [e0]; show n / 32 * 1024 ≤ (i 0).val ∧ (i 0).val < n / 32 * 1024 + 1024; omega
  | ⟨1, _⟩ => show win0_2.index ⟨n, hlt⟩ 1 * 1024 ≤ (i 1).val ∧ (i 1).val < win0_2.index ⟨n, hlt⟩ 1 * 1024 + 1024
              rw [e1]; show n / 8 % 4 * 1024 ≤ (i 1).val ∧ (i 1).val < n / 8 % 4 * 1024 + 1024; omega

/-- So the output array ends holding the product. -/
theorem final (c : Dev nD) : (dats m 0 c).arrAt 2 cfg0.N = product m c :=
  (dats m 0 c).arrAt_eq_of_cover 2 (product m c) (flushed_eq m c) covered

/-- The flat result: the one reshape after the kernel, of the output array. -/
theorem tail_eq (c : Dev nD) :
    Pipeline.afterTail₀ cfgs (dats m) 0 (V0 m) [hostOps1] c main_v3
      = shapeCast S16777216 (product m c) shapeCasts_S4096x4096_S16777216 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = product m c := (Pipeline.withArrays_arr spec0 launch0.win.arr_inj c _ _ 2).trans (final m c)
  funext i
  show shapeCast S16777216 (Pipeline.withArrays (cfgs 0).spec c (V0 m c) (fun w => (dats m 0 c).arrAt w (cfgs 0).N)
      (Proc.devRef .tc main_v2)) shapeCasts_S4096x4096_S16777216 i = _
  rw [hw]

/-- The run, read: the flat result at the reshaped product of the reshaped arguments, the arguments unchanged. -/
theorem run : θ_run defs (onTc (τ := τ) (main (F := Ideal))) ⟨m, fun _ => 0, ρ⟩ fun r => ∀ c : Dev nD,
      r.2.mem ((c.tc : Thread nD τ).loc main_v3)
        = shapeCast S16777216 (prod (shapeCast S4096x4096 (m ((c : Thread nD τ).loc main_arg7)) shapeCasts_S16777216_S4096x4096)
            (shapeCast S4096x4096 (m ((c : Thread nD τ).loc main_arg4)) shapeCasts_S16777216_S4096x4096)) shapeCasts_S4096x4096_S16777216
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(((h c).2 main_v3 (Pipeline.mem_restRefs_of main_v3 (by decide) (by decide))).trans (tail_eq m c)).trans
        (by rw [show product m c = prod (left m c) (right m c) from rfl, left_eq, right_eq]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Result

end
-- ==== Proof.RefProduct.lean ====
/-
  The reference computes the same product.

  The reference re-lays the same two flat arguments as 4096 × 4096 arrays and multiplies them in one step. At the ideal
  values that one product is, at entry (r, c), the sum over all 4096 positions k of left (r, k) · right (k, c): the
  function `prod` the kernel's eight-step accumulation reaches.
-/
import proofs.«128354_j16303695855981_1_alg».proof.Proof.Gen.ReferenceIdeal.Run
import proofs.«128354_j16303695855981_1_alg».proof.Proof.LibDot
import proofs.«128354_j16303695855981_1_alg».proof.Proof.Spec

noncomputable section

open Idealize.ShloMosaic Idealize.ShloMosaic.ValueIdx

namespace Cert.ReferenceIdeal.Product

open Cert.ReferenceIdeal Cert.TiledProduct

/-- The reference's dimension record is the plain rows-by-columns one. -/
theorem dims_plain : dot_S4096x4096_S4096x4096_S4096x4096_1_0_0_1_n_n = DotDims.plain 4096 4096 4096 := rfl

/-- The host's product of two 4096 × 4096 arrays is `prod`. -/
theorem dot_eq_prod (A B : Mat) :
    Host.dotGeneral (F := Ideal) dot_S4096x4096_S4096x4096_S4096x4096_1_0_0_1_n_n none A B = prod A B := by
  funext i
  obtain ⟨r, c, rfl⟩ : ∃ (r : Fin 4096) (c : Fin 4096), i = ix2 r c := ⟨i 0, i 1, eq_ix2 i⟩
  simp only [Host.dotGeneral]
  show FloatOps.dotGeneral (F := Ideal) (DotDims.plain 4096 4096 4096) none _ (A : FVec Ideal ⟨2, ![4096, 4096]⟩ .f32)
      (B : FVec Ideal ⟨2, ![4096, 4096]⟩ .f32) (ix2 r c) = _
  rw [Cert.GNN.dotGeneral_plain_apply]
  rfl

end Cert.ReferenceIdeal.Product

end
-- ==== Proof.lean ====
/-
  A tiled 4096 × 4096 matrix product against the one-step product of the same two arrays.

  Both programs re-lay the flat arguments `jacobian` and `eye` as 4096 × 4096 arrays J and E, form J · E, and lay the
  result flat again. The reference forms the product in one step: entry (r, c) is the sum over k < 4096 of
  J (r, k) · E (k, c). The kernel cuts the result into sixteen 1024 × 1024 tiles and the contracted axis into eight slabs
  of 512. For each tile it clears an accumulator, adds for every slab the product of a 1024 × 512 block of J with a
  512 × 1024 block of E, and stores the accumulator into the tile after the eighth slab. The blocks are narrowed to a
  shorter float format before they are multiplied; over the extended reals a change of format is the identity and
  the matrix unit's product is the plain sum of products, so a tile's entry ends at 0 + share₀ + … + share₇, the eight
  slabs' shares of the entry's sum. Addition of extended reals is commutative and associative and 0 is neutral, so
  this is the full sum over k whatever the values are: the finiteness of the inputs is not used.

  The modules: `Spec` (the product, the slabs' shares and the law that eight shares make the sum), `LibDot` (a plain
  product read at an entry), `Pieces` (what one grid point leaves in the accumulator and in the output block),
  `Payload` (the update read at an entry), `Blocks` (which entries of J and E a grid point reads), `Accum` (the
  accumulator after every point, by induction on the point), `Result` (the tiles fill the output array; the kernel's run
  with its final re-laying) and `RefProduct` (the reference's product is the same function). The three frame claims are
  the generated frames; the kernel's idealization rewrote nothing.
-/
import proofs.«128354_j16303695855981_1_alg».proof.Defs
import proofs.«128354_j16303695855981_1_alg».proof.Proof.Gen.Kernel
import proofs.«128354_j16303695855981_1_alg».proof.Proof.Gen.Kernel.Skeleton
import proofs.«128354_j16303695855981_1_alg».proof.Proof.Gen.Kernel.Launch
import proofs.«128354_j16303695855981_1_alg».proof.Proof.Gen.Kernel.Points
import proofs.«128354_j16303695855981_1_alg».proof.Proof.Gen.Kernel.Frame
import proofs.«128354_j16303695855981_1_alg».proof.Proof.Gen.KernelIdeal
import proofs.«128354_j16303695855981_1_alg».proof.Proof.Gen.KernelIdeal.Skeleton
import proofs.«128354_j16303695855981_1_alg».proof.Proof.Gen.KernelIdeal.Launch
import proofs.«128354_j16303695855981_1_alg».proof.Proof.Gen.KernelIdeal.Points
import proofs.«128354_j16303695855981_1_alg».proof.Proof.Gen.KernelIdeal.Frame
import proofs.«128354_j16303695855981_1_alg».proof.Proof.Gen.ReferenceIdeal
import proofs.«128354_j16303695855981_1_alg».proof.Proof.Gen.ReferenceIdeal.Run
import proofs.«128354_j16303695855981_1_alg».proof.Proof.Gen.Pre_finite_inputs
import proofs.«128354_j16303695855981_1_alg».proof.Proof.Result
import proofs.«128354_j16303695855981_1_alg».proof.Proof.RefProduct
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is four host operations in a row: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Over the extended reals both programs end with the flat product J · E of arguments that agree: the kernel by its
    eight-step accumulation per tile, the reference in one step. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨-, -, -, -, h4, -, -, h7⟩ := hagree c
  rw [h4, h7, Cert.ReferenceIdeal.Product.dot_eq_prod]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
